-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x192 : Shape := ⟨2, ![524288, 192]⟩
abbrev S12x16x16 : Shape := ⟨3, ![12, 16, 16]⟩
abbrev S16 : Shape := ⟨1, ![16]⟩
abbrev S12x12 : Shape := ⟨2, ![12, 12]⟩
abbrev S12 : Shape := ⟨1, ![12]⟩
abbrev S_ : Shape := ⟨0, ![]⟩

class Facts : Prop where
  bcast_S_S524288x192 : S_.BroadcastsInDim S524288x192 (![] : Fin 0 → Fin S524288x192.rank)
  reducesTo_S524288x192_S_d0_1 : S524288x192.ReducesTo [0, 1] S_
  h_S_ : 0 < S_.numel
  bcast_S_S12x16x16 : S_.BroadcastsInDim S12x16x16 (![] : Fin 0 → Fin S12x16x16.rank)
  reducesTo_S12x16x16_S_d0_1_2 : S12x16x16.ReducesTo [0, 1, 2] S_
  bcast_S_S16 : S_.BroadcastsInDim S16 (![] : Fin 0 → Fin S16.rank)
  reducesTo_S16_S_d0 : S16.ReducesTo [0] S_

variable [Facts]

def fn {F : FTy → Type} [FloatOps F] (main_arg0 : FVec F S524288x192 .f32) (main_arg1 : FVec F S12x16x16 .f32) (main_arg2 : FVec F S16 .f32) (main_arg3 : IVec S12x12 32) (main_arg4 : IVec S12 32) : IVec S_ 1 :=
  let main_v0 : FVec F S524288x192 .f32 := Host.absf main_arg0
  let main_cst : FVec F S_ .f32 := constant S_ .f32 0x7F800000#32
  let main_v1 : FVec F S524288x192 .f32 := broadcastInDim S524288x192 ![] bcast_S_S524288x192 main_cst
  let main_v2 : IVec S524288x192 1 := cmpf .olt main_v0 main_v1
  let main_c : IVec S_ 1 := constantI S_ 1 1#1
  let main_v3 : IVec S_ 1 := (fun x v => Host.reduce IntOp.andi x v reducesTo_S524288x192_S_d0_1 h_S_) main_v2 main_c
  let main_v4 : FVec F S12x16x16 .f32 := Host.absf main_arg1
  let main_cst_0 : FVec F S_ .f32 := constant S_ .f32 0x7F800000#32
  let main_v5 : FVec F S12x16x16 .f32 := broadcastInDim S12x16x16 ![] bcast_S_S12x16x16 main_cst_0
  let main_v6 : IVec S12x16x16 1 := cmpf .olt main_v4 main_v5
  let main_c_1 : IVec S_ 1 := constantI S_ 1 1#1
  let main_v7 : IVec S_ 1 := (fun x v => Host.reduce IntOp.andi x v reducesTo_S12x16x16_S_d0_1_2 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S524288x192 : Shape := ⟨2, ![524288, 192]⟩
abbrev S12x16x16 : Shape := ⟨3, ![12, 16, 16]⟩
abbrev S16 : Shape := ⟨1, ![16]⟩
abbrev S12x12 : Shape := ⟨2, ![12, 12]⟩
abbrev S12 : Shape := ⟨1, ![12]⟩
abbrev S12x1 : Shape := ⟨2, ![12, 1]⟩
abbrev S1x12 : Shape := ⟨2, ![1, 12]⟩
abbrev S_ : Shape := ⟨0, ![]⟩
abbrev S12x12x1 : Shape := ⟨3, ![12, 12, 1]⟩
abbrev S12x12x2 : Shape := ⟨3, ![12, 12, 2]⟩
abbrev S12x12x16x16 : Shape := ⟨4, ![12, 12, 16, 16]⟩
abbrev S12x16x12x16 : Shape := ⟨4, ![12, 16, 12, 16]⟩
abbrev S192x192 : Shape := ⟨2, ![192, 192]⟩
abbrev S1x16 : Shape := ⟨2, ![1, 16]⟩
abbrev S12x16 : Shape := ⟨2, ![12, 16]⟩
abbrev S192 : Shape := ⟨1, ![192]⟩
abbrev S1x192 : Shape := ⟨2, ![1, 192]⟩
abbrev S4096x192 : Shape := ⟨2, ![4096, 192]⟩

abbrev nBuf : Space → Nat
  | .hbm => 45
  | .vmem => 6
  | .smem => 0
  | _ => 0

abbrev bufTy : (tb : Table) → Fin (tcTables nBuf tb) → BufTy
  | .hbm, ⟨0, _⟩ => ⟨S524288x192, .f32⟩
  | .hbm, ⟨1, _⟩ => ⟨S12x16x16, .f32⟩
  | .hbm, ⟨2, _⟩ => ⟨S16, .f32⟩
  | .hbm, ⟨3, _⟩ => ⟨S12x12, .i32⟩
  | .hbm, ⟨4, _⟩ => ⟨S12, .i32⟩
  | .hbm, ⟨5, _⟩ => ⟨S12, .i32⟩
  | .hbm, ⟨6, _⟩ => ⟨S12x1, .i32⟩
  | .hbm, ⟨7, _⟩ => ⟨S1x12, .i32⟩
  | .hbm, ⟨8, _⟩ => ⟨S_, .i32⟩
  | .hbm, ⟨9, _⟩ => ⟨S1x12, .i32⟩
  | .hbm, ⟨10, _⟩ => ⟨S1x12, .i1⟩
  | .hbm, ⟨11, _⟩ => ⟨S_, .i32⟩
  | .hbm, ⟨12, _⟩ => ⟨S1x12, .i32⟩
  | .hbm, ⟨13, _⟩ => ⟨S1x12, .i32⟩
  | .hbm, ⟨14, _⟩ => ⟨S1x12, .i32⟩
  | .hbm, ⟨15, _⟩ => ⟨S_, .i32⟩
  | .hbm, ⟨16, _⟩ => ⟨S12x1, .i32⟩
  | .hbm, ⟨17, _⟩ => ⟨S12x1, .i1⟩
  | .hbm, ⟨18, _⟩ => ⟨S_, .i32⟩
  | .hbm, ⟨19, _⟩ => ⟨S12x1, .i32⟩
  | .hbm, ⟨20, _⟩ => ⟨S12x1, .i32⟩
  | .hbm, ⟨21, _⟩ => ⟨S12x1, .i32⟩
  | .hbm, ⟨22, _⟩ => ⟨S12x12, .i32⟩
  | .hbm, ⟨23, _⟩ => ⟨S12x12, .i32⟩
  | .hbm, ⟨24, _⟩ => ⟨S12x12x1, .i32⟩
  | .hbm, ⟨25, _⟩ => ⟨S12x12x1, .i32⟩
  | .hbm, ⟨26, _⟩ => ⟨S12x12x2, .i32⟩
  | .hbm, ⟨27, _⟩ => ⟨S12x12, .i32⟩
  | .hbm, ⟨28, _⟩ => ⟨S_, .i32⟩
  | .hbm, ⟨29, _⟩ => ⟨S12x12, .i32⟩
  | .hbm, ⟨30, _⟩ => ⟨S12x12, .i1⟩
  | .hbm, ⟨31, _⟩ => ⟨S_, .i32⟩
  | .hbm, ⟨32, _⟩ => ⟨S12x12, .i32⟩
  | .hbm, ⟨33, _⟩ => ⟨S12x12, .i32⟩
  | .hbm, ⟨34, _⟩ => ⟨S12x12, .i32⟩
  | .hbm, ⟨35, _⟩ => ⟨S12x12x1, .i32⟩
  | .hbm, ⟨36, _⟩ => ⟨S12x12x16x16, .f32⟩
  | .hbm, ⟨37, _⟩ => ⟨S12x16x12x16, .f32⟩
  | .hbm, ⟨38, _⟩ => ⟨S192x192, .f32⟩
  | .hbm, ⟨39, _⟩ => ⟨S192x192, .f32⟩
  | .hbm, ⟨40, _⟩ => ⟨S1x16, .f32⟩
  | .hbm, ⟨41, _⟩ => ⟨S12x16, .f32⟩
  | .hbm, ⟨42, _⟩ => ⟨S192, .f32⟩
  | .hbm, ⟨43, _⟩ => ⟨S1x192, .f32⟩
  | .hbm, ⟨44, _⟩ => ⟨S524288x192, .f32⟩
  | .local _ .vmem, ⟨0, _⟩ => ⟨S4096x192, .f32⟩
  | .local _ .vmem, ⟨1, _⟩ => ⟨S4096x192, .f32⟩
  | .local _ .vmem, ⟨2, _⟩ => ⟨S192x192, .f32⟩
  | .local _ .vmem, ⟨3, _⟩ => ⟨S1x192, .f32⟩
  | .local _ .vmem, ⟨4, _⟩ => ⟨S4096x192, .f32⟩
  | .local _ .vmem, ⟨5, _⟩ => ⟨S4096x192, .f32⟩
  | _, _ => ⟨S524288x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S12_S12x1_0 : S12.BroadcastsInDim S12x1 (![0] : Fin 1 → Fin S12x1.rank)
  bcast_S12_S1x12_1 : S12.BroadcastsInDim S1x12 (![1] : Fin 1 → Fin S1x12.rank)
  bcast_S_S1x12 : S_.BroadcastsInDim S1x12 (![] : Fin 0 → Fin S1x12.rank)
  bcast_S_S12x1 : S_.BroadcastsInDim S12x1 (![] : Fin 0 → Fin S12x1.rank)
  bcast_S1x12_S12x12_0_1 : S1x12.BroadcastsInDim S12x12 (![0, 1] : Fin 2 → Fin S12x12.rank)
  bcast_S12x1_S12x12_0_1 : S12x1.BroadcastsInDim S12x12 (![0, 1] : Fin 2 → Fin S12x12.rank)
  bcast_S12x12_S12x12x1_0_1 : S12x12.BroadcastsInDim S12x12x1 (![0, 1] : Fin 2 → Fin S12x12x1.rank)
  concatenates_S12x12x1_S12x12x1_S12x12x2_d2 : Shape.Concatenates [S12x12x1, S12x12x1] S12x12x2 2
  bcast_S_S12x12 : S_.BroadcastsInDim S12x12 (![] : Fin 0 → Fin S12x12.rank)
  transposes_S12x12x16x16_S12x16x12x16_0_2_1_3 : S12x12x16x16.Transposes [0, 2, 1, 3] S12x16x12x16
  shapeCasts_S12x16x12x16_S192x192 : S12x16x12x16.ShapeCasts S192x192
  transposes_S192x192_S192x192_1_0 : S192x192.Transposes [1, 0] S192x192
  shapeCasts_S16_S1x16 : S16.ShapeCasts S1x16
  bcast_S1x16_S12x16_0_1 : S1x16.BroadcastsInDim S12x16 (![0, 1] : Fin 2 → Fin S12x16.rank)
  shapeCasts_S12x16_S192 : S12x16.ShapeCasts S192
  shapeCasts_S192_S1x192 : S192.ShapeCasts S1x192
  inb_S4096x192_S4096x192_0_0 : ∀ a, (![0, 0] : Fin 2 → Nat) a + S4096x192.size a ≤ S4096x192.size a
  h_S4096x192 : 0 < S4096x192.numel
  bitsLt_bf16_f32 : FTy.bits .bf16 < FTy.bits .f32
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S4096x192 : S1x192.Broadcasts S4096x192
  gather_S12x12_S12x12x2_S12x12_n_01_n_n_01_2_11_wf : GatherDims.WF S12x12 S12x12x2 S12x12 [] [0, 1] [] [0, 1] [] 2 ![1, 1]
  gather_S12x16x16_S12x12x1_S12x12x16x16_23_0_n_n_0_2_11616_wf : GatherDims.WF S12x16x16 S12x12x1 S12x12x16x16 [2, 3] [0] [] [0] [] 2 ![1, 16, 16]
  dot_S4096x192_S192x192_S4096x192_1_0_0_1_n_n_wf : DotDims.WF S4096x192 S192x192 S4096x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x192.size a ≤ S524288x192.size a
  hwx0_0 : ∀ i : grid0.Coords, EltTy.bits .f32 = 32 ∨ (Rect.block (s := S524288x192) S4096x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x192.size a ≤ S192x192.size a
  hwx0_1 : ∀ i : grid0.Coords, EltTy.bits .f32 = 32 ∨ (Rect.block (s := S192x192) S192x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x192.size a ≤ S524288x192.size a
  hwx0_3 : ∀ i : grid0.Coords, EltTy.bits .f32 = 32 ∨ (Rect.block (s := S524288x192) S4096x192.size (cc0_transform_3 i) (hinb0_3 i)).WholeWords (EltTy.packing .f32)

variable [Facts₀]

def gather_S12x12_S12x12x2_S12x12_n_01_n_n_01_2_11 : GatherDims S12x12 S12x12x2 S12x12 where
  offsetDims := []
  collapsedSliceDims := [0, 1]
  operandBatchingDims := []
  startIndicesBatchingDims := []
  startIndexMap := [0, 1]
  indexVectorDim := 2
  sliceSizes := ![1, 1]
  wf := gather_S12x12_S12x12x2_S12x12_n_01_n_n_01_2_11_wf
def gather_S12x16x16_S12x12x1_S12x12x16x16_23_0_n_n_0_2_11616 : GatherDims S12x16x16 S12x12x1 S12x12x16x16 where
  offsetDims := [2, 3]
  collapsedSliceDims := [0]
  operandBatchingDims := []
  startIndicesBatchingDims := []
  startIndexMap := [0]
  indexVectorDim := 2
  sliceSizes := ![1, 16, 16]
  wf := gather_S12x16x16_S12x12x1_S12x12x16x16_23_0_n_n_0_2_11616_wf
def dot_S4096x192_S192x192_S4096x192_1_0_0_1_n_n : DotDims S4096x192 S192x192 S4096x192 where
  lhsContracting := [1]
  rhsContracting := [0]
  lhsNonContracting := [0]
  rhsNonContracting := [1]
  lhsBatch := []
  rhsBatch := []
  wf := dot_S4096x192_S192x192_S4096x192_1_0_0_1_n_n_wf

abbrev win0_0 : Pipeline.Window sig grid0 :=
  Pipeline.Window.ofSpec (Memref.whole main_arg0) S4096x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S192x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S4096x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x192 : Shape := ⟨2, ![524288, 192]⟩
abbrev S12x16x16 : Shape := ⟨3, ![12, 16, 16]⟩
abbrev S16 : Shape := ⟨1, ![16]⟩
abbrev S12x12 : Shape := ⟨2, ![12, 12]⟩
abbrev S12 : Shape := ⟨1, ![12]⟩
abbrev S12x1 : Shape := ⟨2, ![12, 1]⟩
abbrev S1x12 : Shape := ⟨2, ![1, 12]⟩
abbrev S_ : Shape := ⟨0, ![]⟩
abbrev S12x12x1 : Shape := ⟨3, ![12, 12, 1]⟩
abbrev S12x12x2 : Shape := ⟨3, ![12, 12, 2]⟩
abbrev S12x12x16x16 : Shape := ⟨4, ![12, 12, 16, 16]⟩
abbrev S12x16x12x16 : Shape := ⟨4, ![12, 16, 12, 16]⟩
abbrev S192x192 : Shape := ⟨2, ![192, 192]⟩
abbrev S524288x12x16 : Shape := ⟨3, ![524288, 12, 16]⟩
abbrev S1x1x16 : Shape := ⟨3, ![1, 1, 16]⟩

abbrev nBuf : Space → Nat
  | .hbm => 46
  | .vmem => 0
  | .smem => 0
  | _ => 0

abbrev bufTy : (tb : Table) → Fin (tcTables nBuf tb) → BufTy
  | .hbm, ⟨0, _⟩ => ⟨S524288x192, .f32⟩
  | .hbm, ⟨1, _⟩ => ⟨S12x16x16, .f32⟩
  | .hbm, ⟨2, _⟩ => ⟨S16, .f32⟩
  | .hbm, ⟨3, _⟩ => ⟨S12x12, .i32⟩
  | .hbm, ⟨4, _⟩ => ⟨S12, .i32⟩
  | .hbm, ⟨5, _⟩ => ⟨S12, .i32⟩
  | .hbm, ⟨6, _⟩ => ⟨S12x1, .i32⟩
  | .hbm, ⟨7, _⟩ => ⟨S1x12, .i32⟩
  | .hbm, ⟨8, _⟩ => ⟨S_, .i32⟩
  | .hbm, ⟨9, _⟩ => ⟨S1x12, .i32⟩
  | .hbm, ⟨10, _⟩ => ⟨S1x12, .i1⟩
  | .hbm, ⟨11, _⟩ => ⟨S_, .i32⟩
  | .hbm, ⟨12, _⟩ => ⟨S1x12, .i32⟩
  | .hbm, ⟨13, _⟩ => ⟨S1x12, .i32⟩
  | .hbm, ⟨14, _⟩ => ⟨S1x12, .i32⟩
  | .hbm, ⟨15, _⟩ => ⟨S_, .i32⟩
  | .hbm, ⟨16, _⟩ => ⟨S12x1, .i32⟩
  | .hbm, ⟨17, _⟩ => ⟨S12x1, .i1⟩
  | .hbm, ⟨18, _⟩ => ⟨S_, .i32⟩
  | .hbm, ⟨19, _⟩ => ⟨S12x1, .i32⟩
  | .hbm, ⟨20, _⟩ => ⟨S12x1, .i32⟩
  | .hbm, ⟨21, _⟩ => ⟨S12x1, .i32⟩
  | .hbm, ⟨22, _⟩ => ⟨S12x12, .i32⟩
  | .hbm, ⟨23, _⟩ => ⟨S12x12, .i32⟩
  | .hbm, ⟨24, _⟩ => ⟨S12x12x1, .i32⟩
  | .hbm, ⟨25, _⟩ => ⟨S12x12x1, .i32⟩
  | .hbm, ⟨26, _⟩ => ⟨S12x12x2, .i32⟩
  | .hbm, ⟨27, _⟩ => ⟨S12x12, .i32⟩
  | .hbm, ⟨28, _⟩ => ⟨S_, .i32⟩
  | .hbm, ⟨29, _⟩ => ⟨S12x12, .i32⟩
  | .hbm, ⟨30, _⟩ => ⟨S12x12, .i1⟩
  | .hbm, ⟨31, _⟩ => ⟨S_, .i32⟩
  | .hbm, ⟨32, _⟩ => ⟨S12x12, .i32⟩
  | .hbm, ⟨33, _⟩ => ⟨S12x12, .i32⟩
  | .hbm, ⟨34, _⟩ => ⟨S12x12, .i32⟩
  | .hbm, ⟨35, _⟩ => ⟨S12x12x1, .i32⟩
  | .hbm, ⟨36, _⟩ => ⟨S12x12x16x16, .f32⟩
  | .hbm, ⟨37, _⟩ => ⟨S12x16x12x16, .f32⟩
  | .hbm, ⟨38, _⟩ => ⟨S192x192, .f32⟩
  | .hbm, ⟨39, _⟩ => ⟨S192x192, .f32⟩
  | .hbm, ⟨40, _⟩ => ⟨S524288x192, .f32⟩
  | .hbm, ⟨41, _⟩ => ⟨S524288x12x16, .f32⟩
  | .hbm, ⟨42, _⟩ => ⟨S1x1x16, .f32⟩
  | .hbm, ⟨43, _⟩ => ⟨S524288x12x16, .f32⟩
  | .hbm, ⟨44, _⟩ => ⟨S524288x12x16, .f32⟩
  | .hbm, ⟨45, _⟩ => ⟨S524288x192, .f32⟩
  | _, _ => ⟨S524288x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  bcast_S12_S12x1_0 : S12.BroadcastsInDim S12x1 (![0] : Fin 1 → Fin S12x1.rank)
  bcast_S12_S1x12_1 : S12.BroadcastsInDim S1x12 (![1] : Fin 1 → Fin S1x12.rank)
  bcast_S_S1x12 : S_.BroadcastsInDim S1x12 (![] : Fin 0 → Fin S1x12.rank)
  bcast_S_S12x1 : S_.BroadcastsInDim S12x1 (![] : Fin 0 → Fin S12x1.rank)
  bcast_S1x12_S12x12_0_1 : S1x12.BroadcastsInDim S12x12 (![0, 1] : Fin 2 → Fin S12x12.rank)
  bcast_S12x1_S12x12_0_1 : S12x1.BroadcastsInDim S12x12 (![0, 1] : Fin 2 → Fin S12x12.rank)
  bcast_S12x12_S12x12x1_0_1 : S12x12.BroadcastsInDim S12x12x1 (![0, 1] : Fin 2 → Fin S12x12x1.rank)
  concatenates_S12x12x1_S12x12x1_S12x12x2_d2 : Shape.Concatenates [S12x12x1, S12x12x1] S12x12x2 2
  bcast_S_S12x12 : S_.BroadcastsInDim S12x12 (![] : Fin 0 → Fin S12x12.rank)
  transposes_S12x12x16x16_S12x16x12x16_0_2_1_3 : S12x12x16x16.Transposes [0, 2, 1, 3] S12x16x12x16
  shapeCasts_S12x16x12x16_S192x192 : S12x16x12x16.ShapeCasts S192x192
  transposes_S192x192_S192x192_1_0 : S192x192.Transposes [1, 0] S192x192
  shapeCasts_S524288x192_S524288x12x16 : S524288x192.ShapeCasts S524288x12x16
  bcast_S16_S1x1x16_2 : S16.BroadcastsInDim S1x1x16 (![2] : Fin 1 → Fin S1x1x16.rank)
  bcast_S1x1x16_S524288x12x16_0_1_2 : S1x1x16.BroadcastsInDim S524288x12x16 (![0, 1, 2] : Fin 3 → Fin S524288x12x16.rank)
  shapeCasts_S524288x12x16_S524288x192 : S524288x12x16.ShapeCasts S524288x192
  gather_S12x12_S12x12x2_S12x12_n_01_n_n_01_2_11_wf : GatherDims.WF S12x12 S12x12x2 S12x12 [] [0, 1] [] [0, 1] [] 2 ![1, 1]
  gather_S12x16x16_S12x12x1_S12x12x16x16_23_0_n_n_0_2_11616_wf : GatherDims.WF S12x16x16 S12x12x1 S12x12x16x16 [2, 3] [0] [] [0] [] 2 ![1, 16, 16]
  dot_S524288x192_S192x192_S524288x192_1_0_0_1_n_n_wf : DotDims.WF S524288x192 S192x192 S524288x192 [1] [0] [0] [1] [] []

variable [Facts₀]

def gather_S12x12_S12x12x2_S12x12_n_01_n_n_01_2_11 : GatherDims S12x12 S12x12x2 S12x12 where
  offsetDims := []
  collapsedSliceDims := [0, 1]
  operandBatchingDims := []
  startIndicesBatchingDims := []
  startIndexMap := [0, 1]
  indexVectorDim := 2
  sliceSizes := ![1, 1]
  wf := gather_S12x12_S12x12x2_S12x12_n_01_n_n_01_2_11_wf
def gather_S12x16x16_S12x12x1_S12x12x16x16_23_0_n_n_0_2_11616 : GatherDims S12x16x16 S12x12x1 S12x12x16x16 where
  offsetDims := [2, 3]
  collapsedSliceDims := [0]
  operandBatchingDims := []
  startIndicesBatchingDims := []
  startIndexMap := [0]
  indexVectorDim := 2
  sliceSizes := ![1, 16, 16]
  wf := gather_S12x16x16_S12x12x1_S12x12x16x16_23_0_n_n_0_2_11616_wf
def dot_S524288x192_S192x192_S524288x192_1_0_0_1_n_n : DotDims S524288x192 S192x192 S524288x192 where
  lhsContracting := [1]
  rhsContracting := [0]
  lhsNonContracting := [0]
  rhsNonContracting := [1]
  lhsBatch := []
  rhsBatch := []
  wf := dot_S524288x192_S192x192_S524288x192_1_0_0_1_n_n_wf

class Facts : Prop extends Facts₀ where

variable [Facts]
-- ==== Proof.BlockProduct.lean ====
/-
  One grid point's stored block, entry by entry, at the ideal values.

  The body loads a 4096 × 192 block of x, the whole 192 × 192 matrix Wᵀ and the one-row bias [1, 192], narrows the first two
  to bf16 (the identity on extended reals), multiplies them into a zero accumulator and adds the bias row broadcast down the
  rows. So entry (p, q) of what it stores is

      ∑ k < 192, x[p, k] · Wᵀ[k, q]  +  bias[0, q].

  The product's operand indices at output (p, q) and contraction index k are (p, k) and (k, q): the four coordinate facts
  below, then the contraction index carried to `Fin 192`.
-/
import proofs.«102241_j13417477833309_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-- The left operand's row is the output's row. -/
theorem lhs_row (i : S4096x192.Idx) (q : dot_S4096x192_S192x192_S4096x192_1_0_0_1_n_n.contr.Idx) :
    (dot_S4096x192_S192x192_S4096x192_1_0_0_1_n_n.lhsIdx i q 0).val = (i 0).val := by
  unfold DotDims.lhsIdx
  rw [dif_neg (show ¬(0 : Fin S4096x192.rank) ∈ dot_S4096x192_S192x192_S4096x192_1_0_0_1_n_n.lhsBatch by decide), dif_pos (show (0 : Fin S4096x192.rank) ∈ dot_S4096x192_S192x192_S4096x192_1_0_0_1_n_n.lhsNonContracting by decide)]
  rfl

/-- The left operand's column is the contraction index. -/
theorem lhs_col (i : S4096x192.Idx) (q : dot_S4096x192_S192x192_S4096x192_1_0_0_1_n_n.contr.Idx) :
    (dot_S4096x192_S192x192_S4096x192_1_0_0_1_n_n.lhsIdx i q 1).val = (q ⟨0, by decide⟩).val :=
  dot_S4096x192_S192x192_S4096x192_1_0_0_1_n_n.lhsIdx_val_of_single rfl i q

/-- The right operand's row is the contraction index. -/
theorem rhs_row (i : S4096x192.Idx) (q : dot_S4096x192_S192x192_S4096x192_1_0_0_1_n_n.contr.Idx) :
    (dot_S4096x192_S192x192_S4096x192_1_0_0_1_n_n.rhsIdx i q 0).val = (q ⟨0, by decide⟩).val :=
  dot_S4096x192_S192x192_S4096x192_1_0_0_1_n_n.rhsIdx_val_of_single rfl i q

/-- The right operand's column is the output's column. -/
theorem rhs_col (i : S4096x192.Idx) (q : dot_S4096x192_S192x192_S4096x192_1_0_0_1_n_n.contr.Idx) :
    (dot_S4096x192_S192x192_S4096x192_1_0_0_1_n_n.rhsIdx i q 1).val = (i 1).val := by
  unfold DotDims.rhsIdx
  rw [dif_neg (show ¬(1 : Fin S192x192.rank) ∈ dot_S4096x192_S192x192_S4096x192_1_0_0_1_n_n.rhsBatch by decide), dif_pos (show (1 : Fin S192x192.rank) ∈ dot_S4096x192_S192x192_S4096x192_1_0_0_1_n_n.rhsNonContracting by decide)]
  rfl

/-- The block product into a zero accumulator, at entry (p, q): the inner product of row p with column q. -/
theorem product_apply (x : FVec Ideal S4096x192 .bf16) (w : FVec Ideal S192x192 .bf16) (p : Fin 4096) (q : Fin 192) :
    matmul dot_S4096x192_S192x192_S4096x192_1_0_0_1_n_n none x w (constant S4096x192 .f32 0x00000000#32) (ix2 p q)
      = ∑ k : Fin 192, x (ix2 p k) * w (ix2 k q) := by
  simp only [matmul]
  rw [Ideal.matmul_constant_zero_apply, ← Equiv.sum_comp (contrEquiv1 dot_S4096x192_S192x192_S4096x192_1_0_0_1_n_n 192 rfl rfl).symm]
  refine Finset.sum_congr rfl fun k _ => ?_
  have hk := contrEquiv1_symm_val dot_S4096x192_S192x192_S4096x192_1_0_0_1_n_n 192 rfl rfl k
  have el : dot_S4096x192_S192x192_S4096x192_1_0_0_1_n_n.lhsIdx (ix2 p q) ((contrEquiv1 dot_S4096x192_S192x192_S4096x192_1_0_0_1_n_n 192 rfl rfl).symm k) = ix2 p k := funext fun a => Fin.ext (by
    match a with
    | ⟨0, _⟩ => exact lhs_row _ _
    | ⟨1, _⟩ => exact (lhs_col _ _).trans hk)
  have er : dot_S4096x192_S192x192_S4096x192_1_0_0_1_n_n.rhsIdx (ix2 p q) ((contrEquiv1 dot_S4096x192_S192x192_S4096x192_1_0_0_1_n_n 192 rfl rfl).symm k) = ix2 k q := funext fun a => Fin.ext (by
    match a with
    | ⟨0, _⟩ => exact (rhs_row _ _).trans hk
    | ⟨1, _⟩ => exact rhs_col _ _)
  rw [el, er]

/-- The one-row bias broadcast down 4096 rows, at entry (p, q), is the row's entry q. -/
theorem bias_rows_apply (b : FVec Ideal S1x192 .f32) (p : Fin 4096) (q : Fin 192) :
    broadcastTo S4096x192 b broadcasts_S1x192_S4096x192 (ix2 p q) = b (ix2 (0 : Fin 1) q) := by
  refine broadcastTo_apply b broadcasts_S1x192_S4096x192 (ix2 p q) (ix2 (0 : Fin 1) q) ?_
  intro a
  match a with
  | ⟨0, _⟩ => show (0 : ℕ) = if (1 : ℕ) = 1 then 0 else _; rw [if_pos rfl]
  | ⟨1, _⟩ => show q.val = if (192 : ℕ) = 1 then 0 else q.val; rw [if_neg (by decide)]

/-- What the body stores, at entry (p, q) of its block. -/
theorem stored_apply (x : Vec Ideal S4096x192 .f32) (w : Vec Ideal S192x192 .f32) (b : Vec Ideal S1x192 .f32) (p : Fin 4096) (q : Fin 192) :
    k0_pay1 (F := Ideal) x w b (ix2 p q) = (∑ k : Fin 192, x (ix2 p k) * w (ix2 k q)) + b (ix2 (0 : Fin 1) q) := by
  unfold k0_pay1
  rw [addf_apply, product_apply, shapeCast_self, shapeCast_self, bias_rows_apply]
  rfl

end Cert.KernelIdeal.BlockValue

end
-- ==== Proof.AffineRows.lean ====
/-
  The layer as one function of its operands: y = x · Wᵀ + b over the extended reals.

  Entry (n, j) of the [524288, 192] result is  ∑ k < 192, x[n, k] · wt[k, j]  +  b[j],
  where wt is the [192, 192] matrix the products are taken against (already transposed: rows are the contraction index) and
  b gives the bias of output column j. Both programs are read to this function; no law of arithmetic is needed to join them,
  so nothing here asks the entries to be finite.
-/
import Idealize.ShloMosaic.PureOps.Ideal
import Idealize.ShloMosaic.Lib.ValueIdx

noncomputable section

namespace Cert.Layer

open Idealize.ShloMosaic Idealize.ShloMosaic.ValueIdx

/-- y[n, j] = ∑ k, x[n, k] · wt[k, j] + b[j]. -/
def affineRows (x : (⟨2, ![524288, 192]⟩ : Shape).Idx → EReal) (wt : (⟨2, ![192, 192]⟩ : Shape).Idx → EReal)
    (b : Fin 192 → EReal) : (⟨2, ![524288, 192]⟩ : Shape).Idx → EReal :=
  fun i => (∑ k : Fin 192, x (ix2 (i 0) k) * wt (ix2 k (i 1))) + b (i 1)

theorem affineRows_apply (x : (⟨2, ![524288, 192]⟩ : Shape).Idx → EReal) (wt : (⟨2, ![192, 192]⟩ : Shape).Idx → EReal)
    (b : Fin 192 → EReal) (i : (⟨2, ![524288, 192]⟩ : Shape).Idx) :
    affineRows x wt b i = (∑ k : Fin 192, x (ix2 (i 0) k) * wt (ix2 k (i 1))) + b (i 1) := rfl

/-- Column j of the output belongs to channel j mod 16 of its group: the index of the [16] bias it takes. -/
abbrev channel (j : Fin 192) : Fin 16 := ⟨j.val % 16, Nat.mod_lt _ (by decide)⟩

end Cert.Layer

end
-- ==== Proof.KernelArray.lean ====
/-
  The kernel's result array, at the ideal values, is the layer's function of the arrays the region finds.

  Grid point t stages rows 4096·t … 4096·t + 4095 of x, the whole matrix Wᵀ and the whole bias row, and writes back the same
  rows of the result. Entry (p, q) of the block it writes is the inner product of x's row 4096·t + p with Wᵀ's column q plus
  the bias row's entry q — which is entry (4096·t + p, q) of `affineRows`. The 128 blocks tile the rows, so the array ends
  at `affineRows` everywhere.
-/
import proofs.«102241_j13417477833309_1_alg».proof.Proof.Gen.KernelIdeal.Value
import proofs.«102241_j13417477833309_1_alg».proof.Proof.BlockProduct
import proofs.«102241_j13417477833309_1_alg».proof.Proof.AffineRows

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Cert.Layer

variable (m : (ℓ : Loc nD τ sig) → Buf (Elt Ideal) ℓ) (ρ : Dev nD → PrngReg)

theorem hz : (![0, 0] : Fin 2 → Nat) = fun _ => 0 := funext fun a => by fin_cases a <;> rfl

/-- The arrays the region finds, at their literal types: x, the matrix Wᵀ the host built, the bias row the host built. -/
abbrev xArr (c : Dev nD) : Vec Ideal S524288x192 .f32 := V m c main_arg0
abbrev wtArr (c : Dev nD) : Vec Ideal S192x192 .f32 := V m c main_v28
abbrev biasRow (c : Dev nD) : Vec Ideal S1x192 .f32 := V m c main_v32

/-- The three input blocks at a point, at their literal types. -/
abbrev xBlk (c : Dev nD) (t : Fin cfg0.N) : Vec Ideal S4096x192 .f32 := iblk m c 0 t
abbrev wtBlk (c : Dev nD) (t : Fin cfg0.N) : Vec Ideal S192x192 .f32 := iblk m c 1 t
abbrev biasBlk (c : Dev nD) (t : Fin cfg0.N) : Vec Ideal S1x192 .f32 := iblk m c 2 t

/-- The result the array ends at. -/
abbrev result (c : Dev nD) : Vec Ideal S524288x192 .f32 :=
  affineRows (xArr m c) (wtArr m c) (fun q => biasRow m c (ix2 (0 : Fin 1) q))

/-- The index maps over the grid: x and the result move down one block of rows per point, the matrix and the bias row stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, k) of x's block at point t is x[4096·t + p, k]. -/
theorem xBlk_apply (c : Dev nD) (t : Fin cfg0.N) (p : Fin 4096) (k : Fin 192) (n : Fin 524288) (hn : n.val = t.val * 4096 + p.val) :
    xBlk m c t (ix2 p k) = xArr m c (ix2 n k) := by
  obtain ⟨e0, e1, -⟩ := idx_facts t
  show V m c main_arg0 (((cfg0.win 0).blk t).view.emb (ix2 p k)) = V m c main_arg0 (ix2 n k)
  refine congrArg _ (funext fun a => Fin.ext ?_)
  match a with
  | ⟨0, _⟩ => show win0_0.index t (0 : Fin 2) * 4096 + 1 * p.val = n.val; omega
  | ⟨1, _⟩ => show win0_0.index t (1 : Fin 2) * 192 + 1 * k.val = k.val; omega

/-- The matrix's block at any point is the matrix. -/
theorem wtBlk_apply (c : Dev nD) (t : Fin cfg0.N) (k q : Fin 192) :
    wtBlk m c t (ix2 k q) = wtArr m c (ix2 k q) := by
  obtain ⟨-, -, e2, e3, -⟩ := idx_facts t
  show V m c main_v28 (((cfg0.win 1).blk t).view.emb (ix2 k q)) = V m c main_v28 (ix2 k q)
  refine congrArg _ (funext fun a => Fin.ext ?_)
  match a with
  | ⟨0, _⟩ => show win0_1.index t (0 : Fin 2) * 192 + 1 * k.val = k.val; omega
  | ⟨1, _⟩ => show win0_1.index t (1 : Fin 2) * 192 + 1 * q.val = q.val; omega

/-- The bias row's block at any point is the bias row. -/
theorem biasBlk_apply (c : Dev nD) (t : Fin cfg0.N) (q : Fin 192) :
    biasBlk m c t (ix2 (0 : Fin 1) q) = biasRow m c (ix2 (0 : Fin 1) q) := by
  obtain ⟨-, -, -, -, e4, e5, -⟩ := idx_facts t
  show V m c main_v32 (((cfg0.win 2).blk t).view.emb (ix2 (0 : Fin 1) q)) = V m c main_v32 (ix2 (0 : Fin 1) q)
  refine congrArg _ (funext fun a => Fin.ext ?_)
  match a with
  | ⟨0, _⟩ => show win0_2.index t (0 : Fin 2) * 1 + 1 * 0 = 0; omega
  | ⟨1, _⟩ => show win0_2.index t (1 : Fin 2) * 192 + 1 * q.val = q.val; omega

/-- Where entry (p, q) of point t's block lies in the array: row 4096·t + p, column q. -/
theorem emb_row (t : Fin cfg0.N) (p : Fin 4096) (q : Fin 192) :
    ((((cfg0.win 3).blk t).view.emb (ix2 p q)) 0).val = t.val * 4096 + p.val := by
  obtain ⟨-, -, -, -, -, -, e6, e7⟩ := idx_facts t
  show win0_3.index t (0 : Fin 2) * 4096 + 1 * p.val = _
  omega

theorem emb_col (t : Fin cfg0.N) (p : Fin 4096) (q : Fin 192) :
    ((((cfg0.win 3).blk t).view.emb (ix2 p q)) 1).val = q.val := by
  obtain ⟨-, -, -, -, -, -, e6, e7⟩ := idx_facts t
  show win0_3.index t (1 : Fin 2) * 192 + 1 * q.val = _
  omega

/-- The inner product of the blocks plus the bias row's entry is the layer's function at any array index on row
    4096·t + p and column q. -/
theorem entry_of (c : Dev nD) (t : Fin cfg0.N) (p : Fin 4096) (q : Fin 192) (i : S524288x192.Idx)
    (h0 : (i 0).val = t.val * 4096 + p.val) (h1 : (i 1).val = q.val) :
    (∑ k : Fin 192, xBlk m c t (ix2 p k) * wtBlk m c t (ix2 k q)) + biasBlk m c t (ix2 (0 : Fin 1) q) = result m c i := by
  have hq : (i 1 : Fin 192) = q := Fin.ext h1
  show _ = affineRows (xArr m c) (wtArr m c) (fun q => biasRow m c (ix2 (0 : Fin 1) q)) i
  rw [affineRows_apply, hq]
  refine congrArg₂ (· + ·) (Finset.sum_congr rfl fun k _ => ?_) (biasBlk_apply m c t q)
  rw [xBlk_apply m c t p k (i 0) h0, wtBlk_apply m c t k q]

/-- Entry j of the block point t stores is the layer's function at the array index the block's entry j lies at. -/
theorem stored_entry (c : Dev nD) (t : Fin cfg0.N) (j : S4096x192.Idx) :
    k0_pay1 (F := Ideal) (xBlk m c t) (wtBlk m c t) (biasBlk m c t) j = result m c (((cfg0.win 3).blk t).view.emb j) := by
  obtain ⟨p, q, rfl⟩ : ∃ (p : Fin 4096) (q : Fin 192), j = ix2 p q := ⟨j 0, j 1, eq_ix2 j⟩
  refine (BlockValue.stored_apply (xBlk m c t) (wtBlk m c t) (biasBlk m c t) p q).trans ?_
  exact entry_of m c t p q (((cfg0.win 3).blk t).view.emb (ix2 p q)) (emb_row t p q) (emb_col t p q)

/-- What point t writes back is block t of the result. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S4096x192) hz, View.ld_unit_zero (S := S192x192) hz, View.ld_unit_zero (S := S1x192) hz]
  funext j
  exact stored_entry m c t j

/-- An index of the result is in point t's block iff its row is among the block's 4096 rows. -/
theorem mem_blk (t : Fin cfg0.N) (i : S524288x192.Idx) :
    i ∈ ((cfg0.win 3).blk t).view.set ↔ ∀ a : Fin 2, win0_3.index t a * S4096x192.size a ≤ (i a).val ∧ (i a).val < win0_3.index t a * S4096x192.size a + S4096x192.size a := by
  show i ∈ ((View.whole main_v33).slice (win0_3.rect t)).set ↔ _
  rw [View.set_slice_whole, Rect.mem_set_unit]
  exact Iff.rfl

/-- Row n lies in the block of point n / 4096. -/
theorem cover (i : S524288x192.Idx) : ∃ t : Fin cfg0.N, (cfg0.win 3).flush t = true ∧ i ∈ ((cfg0.win 3).blk t).view.set := by
  have h0 : (i 0).val < 524288 := (i 0).isLt
  have h1 : (i 1).val < 192 := (i 1).isLt
  have hN : cfg0.N = 128 := N_0
  let t : Fin cfg0.N := ⟨(i 0).val / 4096, by rw [hN]; omega⟩
  obtain ⟨-, -, -, -, -, -, e6, e7⟩ := idx_facts t
  have htv : t.val = (i 0).val / 4096 := rfl
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 192 ≤ (i 1).val ∧ (i 1).val < win0_3.index t (1 : Fin 2) * 192 + 192; omega

/-- The result array after the run. -/
theorem final (c : Dev nD) : (dats m 0 c).arrAt 3 cfg0.N = result m c :=
  (dats m 0 c).arrAt_eq_of_cover 3 (result m c) (fun t _ => flushed_eq m c t) cover

/-- The run, read: the result array at the layer's function of the arrays the region finds, the arguments unchanged. -/
theorem run : θ_run defs (onTc (τ := τ) (main (F := Ideal))) ⟨m, fun _ => 0, ρ⟩ fun r => ∀ c : Dev nD,
      r.2.mem ((c : Thread nD τ).loc main_v33) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.HostArrays.lean ====
/-
  What the kernel's region finds in the two arrays the host built before it.

  The matrix Wᵀ: the host builds it from the [12, 16, 16] kernel, the Cayley table and the inverse indices by two gathers, a
  transpose, a reshape and a last transpose — the very operations the reference applies before its own product. So the
  array the region finds is the reference's stage for Wᵀ, of the same three arguments.

  The bias row [1, 192]: the [16] bias laid out as one row, repeated down 12 rows, and flattened. Its entry q is the bias of
  channel q mod 16: flattening [12, 16] row-major sends (g, o) to 16·g + o.
-/
import proofs.«102241_j13417477833309_1_alg».proof.Proof.Gen.KernelIdeal.Frame
import proofs.«102241_j13417477833309_1_alg».proof.Proof.Gen.ReferenceIdeal.Read
import proofs.«102241_j13417477833309_1_alg».proof.Proof.AffineRows
import Idealize.ShloMosaic.Lib.StableHlo.Run
import Idealize.ShloMosaic.Lib.Pipeline.Value
import Idealize.ShloMosaic.Lib.ValueIdx

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx
open Cert.Layer

variable (m : (ℓ : Loc nD τ sig) → Buf (Elt Ideal) ℓ)

/-- The matrix the region multiplies by is the reference's Wᵀ of the kernel's own arguments. -/
theorem wt_eq (c : Dev nD) :
    (V m c main_v28 : S192x192.Idx → EReal)
      = Cert.ReferenceIdeal.Read.val_main_v28 (F := Ideal) (m ((c : Thread nD τ).loc main_arg1)) (m ((c : Thread nD τ).loc main_arg3)) (m ((c : Thread nD τ).loc main_arg4)) := by
  dsimp only [V, hostOps0]
  after_results_simp <;> rfl

/-- The bias row as the host's operations of the bias. -/
theorem bias_term (c : Dev nD) :
    (V m c main_v32 : S1x192.Idx → EReal)
      = shapeCast S1x192 (shapeCast S192 (broadcastInDim S12x16 ![0, 1] bcast_S1x16_S12x16_0_1
          (shapeCast S1x16 (m ((c : Thread nD τ).loc main_arg2)) shapeCasts_S16_S1x16)) shapeCasts_S12x16_S192) shapeCasts_S192_S1x192 := by
  dsimp only [V, hostOps0]
  after_results_simp <;> rfl

/-- Entry q of the bias row is the bias of channel q mod 16. -/
theorem bias_apply (c : Dev nD) (q : Fin 192) :
    (V m c main_v32 : S1x192.Idx → EReal) (ix2 (0 : Fin 1) q) = (m ((c : Thread nD τ).loc main_arg2) : S16.Idx → EReal) (ix1 (channel q)) := by
  have hq : q.val < 192 := q.isLt
  refine (congrFun (bias_term m c) _).trans ?_
  refine (shapeCast_apply _ shapeCasts_S192_S1x192 (ix2 (0 : Fin 1) q) (ix1 q) (by
    rw [Shape.rowMajor_val_one, Shape.rowMajor_val_two]; show q.val = 0 * 192 + q.val; omega)).trans ?_
  refine (shapeCast_apply _ shapeCasts_S12x16_S192 (ix1 q) (ix2 (⟨q.val / 16, by omega⟩ : Fin 12) (channel q)) (by
    rw [Shape.rowMajor_val_two, Shape.rowMajor_val_one]; show q.val / 16 * 16 + q.val % 16 = q.val; omega)).trans ?_
  refine (broadcastInDim_apply ![0, 1] bcast_S1x16_S12x16_0_1 _ (ix2 (⟨q.val / 16, by omega⟩ : Fin 12) (channel q)) (ix2 (0 : Fin 1) (channel q)) (fun a => match a with
    | ⟨0, _⟩ => by show (0 : ℕ) = if (1 : ℕ) = 1 then 0 else _; rw [if_pos rfl]
    | ⟨1, _⟩ => by show q.val % 16 = if (16 : ℕ) = 1 then 0 else q.val % 16; rw [if_neg (by decide)])).trans ?_
  exact shapeCast_apply _ shapeCasts_S16_S1x16 (ix2 (0 : Fin 1) (channel q)) (ix1 (channel q)) (by
    rw [Shape.rowMajor_val_one, Shape.rowMajor_val_two]; show q.val % 16 = 0 * 16 + q.val % 16; omega)

end Cert.KernelIdeal.HostValue

end
-- ==== Proof.KernelLayer.lean ====
/-
  The kernel's result as the layer's function of the ARGUMENTS.

  The region finds x as launched, the matrix Wᵀ at the reference's stage for it, and a bias row whose entry q is the bias of
  channel q mod 16: so the result array is `affineRows` of x, that stage, and the bias by channel — the term the reference's
  result is read to.
-/
import proofs.«102241_j13417477833309_1_alg».proof.Proof.KernelArray
import proofs.«102241_j13417477833309_1_alg».proof.Proof.HostArrays

noncomputable section

namespace Cert.KernelIdeal.LayerValue

open Cert.KernelIdeal Cert.KernelIdeal.Gen Idealize.ShloMosaic Idealize.ShloMosaic.TcCoe Idealize.SL.Sem
open Idealize.ShloMosaic.ValueIdx
open Cert.Layer

variable (m : (ℓ : Loc nD τ sig) → Buf (Elt Ideal) ℓ) (ρ : Dev nD → PrngReg)

/-- The layer's function of the kernel's arguments. -/
abbrev layer (c : Dev nD) : S524288x192.Idx → EReal :=
  affineRows (m ((c : Thread nD τ).loc main_arg0))
    (Cert.ReferenceIdeal.Read.val_main_v28 (F := Ideal) (m ((c : Thread nD τ).loc main_arg1)) (m ((c : Thread nD τ).loc main_arg3)) (m ((c : Thread nD τ).loc main_arg4)))
    (fun q => (m ((c : Thread nD τ).loc main_arg2) : S16.Idx → EReal) (ix1 (channel q)))

theorem result_eq (c : Dev nD) : ArrayValue.result m c = layer m c := by
  have e0 : (V m c main_arg0 : S524288x192.Idx → EReal) = m ((c : Thread nD τ).loc main_arg0) := V_main_arg0 m c
  have e1 := HostValue.wt_eq m c
  have e2 : (fun q : Fin 192 => (V m c main_v32 : S1x192.Idx → EReal) (ix2 (0 : Fin 1) q))
      = fun q => (m ((c : Thread nD τ).loc main_arg2) : S16.Idx → EReal) (ix1 (channel q)) :=
    funext fun q => HostValue.bias_apply m c q
  show affineRows (V m c main_arg0 : S524288x192.Idx → EReal) (V m c main_v28 : S192x192.Idx → EReal)
      (fun q : Fin 192 => (V m c main_v32 : S1x192.Idx → EReal) (ix2 (0 : Fin 1) q)) = _
  rw [e0, e1, e2]

/-- The run, read: the result array at the layer's function of the arguments, the arguments unchanged. -/
theorem run : θ_run defs (onTc (τ := τ) (main (F := Ideal))) ⟨m, fun _ => 0, ρ⟩ fun r => ∀ c : Dev nD,
      r.2.mem ((c : Thread nD τ).loc main_v33) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_eq m c), (h c).2⟩) (ArrayValue.run m ρ)

end Cert.KernelIdeal.LayerValue

end
-- ==== Proof.ReferenceLayer.lean ====
/-
  The reference's result, at the ideal values, is the layer's function of its arguments and of its own stage for Wᵀ.

  The reference multiplies x by Wᵀ on the host, views the [524288, 192] product as [524288, 12, 16], adds the [16] bias along
  the last axis and flattens back. Flattening and un-flattening cancel on the product's index — (n, g, o) is (n, 16·g + o) —
  and the bias entry an output column j = 16·g + o meets is entry o = j mod 16. The host's product at (n, j) is the sum over k
  of x[n, k] · Wᵀ[k, j].
-/
import proofs.«102241_j13417477833309_1_alg».proof.Proof.Gen.ReferenceIdeal.Read
import proofs.«102241_j13417477833309_1_alg».proof.Proof.AffineRows

noncomputable section

namespace Cert.ReferenceIdeal.LayerValue

open Cert.ReferenceIdeal Cert.ReferenceIdeal.Gen Cert.ReferenceIdeal.Read Idealize.ShloMosaic Idealize.ShloMosaic.TcCoe Idealize.SL.Sem
open Idealize.ShloMosaic.ValueIdx
open Cert.Layer

/-- The reference's last stage is `affineRows` of x, its stage for Wᵀ, and the bias by channel. -/
theorem result_eq (x0 : (⟨S524288x192, .f32⟩ : BufTy).Contents (Elt Ideal)) (x1 : (⟨S12x16x16, .f32⟩ : BufTy).Contents (Elt Ideal))
    (x2 : (⟨S16, .f32⟩ : BufTy).Contents (Elt Ideal)) (x3 : (⟨S12x12, .i32⟩ : BufTy).Contents (Elt Ideal)) (x4 : (⟨S12, .i32⟩ : BufTy).Contents (Elt Ideal)) :
    val_main_v34 (F := Ideal) x0 x1 x2 x3 x4
      = affineRows x0 (val_main_v28 (F := Ideal) x1 x3 x4) (fun q => x2 (ix1 (channel q))) := by
  funext i
  have h0 : (i 0).val < 524288 := (i 0).isLt
  have h1 : (i 1).val < 192 := (i 1).isLt
  -- un-flattening then flattening the product's index gives it back
  have eprod : idx_main_v30 (idx_main_v34 i) = i := funext fun a => Fin.ext (by
    match a with
    | ⟨0, _⟩ =>
      show ((((i 0).val * 192 + (i 1).val) / 192 * 12 + ((i 0).val * 192 + (i 1).val) / 16 % 12) * 16 + ((i 0).val * 192 + (i 1).val) % 16) / 192 = (i 0).val
      omega
    | ⟨1, _⟩ =>
      show ((((i 0).val * 192 + (i 1).val) / 192 * 12 + ((i 0).val * 192 + (i 1).val) / 16 % 12) * 16 + ((i 0).val * 192 + (i 1).val) % 16) % 192 = (i 1).val
      omega)
  -- the bias entry column j meets is entry j mod 16
  have ebias : idx_main_v31 (idx_main_v32 (idx_main_v34 i)) = ix1 (channel (i 1)) := funext fun a => Fin.ext (by
    match a with
    | ⟨0, _⟩ => show ((i 0).val * 192 + (i 1).val) % 16 = (i 1).val % 16; omega)
  have el : ∀ k : Fin 192, lidx_main_v29 i k = ix2 (i 0) k := fun k => funext fun a => Fin.ext (by
    match a with
    | ⟨0, _⟩ => rfl
    | ⟨1, _⟩ => rfl)
  have er : ∀ k : Fin 192, ridx_main_v29 i k = ix2 k (i 1) := fun k => funext fun a => Fin.ext (by
    match a with
    | ⟨0, _⟩ => rfl
    | ⟨1, _⟩ => rfl)
  rw [val_main_v34_apply, val_main_v33_apply, val_main_v30_apply, val_main_v32_apply, val_main_v31_apply, eprod, ebias,
    val_main_v29_apply, affineRows_apply]
  simp only [el, er]
  rfl

end Cert.ReferenceIdeal.LayerValue

end
-- ==== Proof.lean ====
/-
  A group-equivariant linear layer: y = x · Wᵀ + b over x : [524288, 192], where W : [192, 192] is assembled from a
  [12, 16, 16] kernel through the group's Cayley table and inverse indices, and b repeats a [16] bias over the 12 group copies.

  Both programs assemble Wᵀ by the same host operations. The kernel then tiles the rows of x in 128 blocks of 4096, multiplies
  each block by Wᵀ (in bf16 on the hardware, the identity at the ideal values) into a zero accumulator and adds a [1, 192] bias
  row, b tiled 12 times; the reference takes one whole product on the host, views it as [524288, 12, 16], adds b along the last
  axis and flattens. At the ideal values both are

      y[n, j] = ∑ k < 192, x[n, k] · Wᵀ[k, j]  +  b[j mod 16],

  the same sum in the same order with the same bias entry: no law of arithmetic joins them, so the entries' finiteness is
  never used. The frames of the two kernel programs are the generated ones; the reference's frame is its run with the result
  dropped; the idealization rewrote nothing.
-/
import proofs.«102241_j13417477833309_1_alg».proof.Defs
import proofs.«102241_j13417477833309_1_alg».proof.Proof.Gen.Kernel
import proofs.«102241_j13417477833309_1_alg».proof.Proof.Gen.Kernel.Skeleton
import proofs.«102241_j13417477833309_1_alg».proof.Proof.Gen.Kernel.Launch
import proofs.«102241_j13417477833309_1_alg».proof.Proof.Gen.Kernel.Points
import proofs.«102241_j13417477833309_1_alg».proof.Proof.Gen.Kernel.Frame
import proofs.«102241_j13417477833309_1_alg».proof.Proof.Gen.KernelIdeal
import proofs.«102241_j13417477833309_1_alg».proof.Proof.Gen.KernelIdeal.Skeleton
import proofs.«102241_j13417477833309_1_alg».proof.Proof.Gen.KernelIdeal.Launch
import proofs.«102241_j13417477833309_1_alg».proof.Proof.Gen.KernelIdeal.Points
import proofs.«102241_j13417477833309_1_alg».proof.Proof.Gen.KernelIdeal.Frame
import proofs.«102241_j13417477833309_1_alg».proof.Proof.Gen.ReferenceIdeal
import proofs.«102241_j13417477833309_1_alg».proof.Proof.Gen.Pre_finite_inputs
import proofs.«102241_j13417477833309_1_alg».proof.Proof.Gen.KernelIdeal.Value
import proofs.«102241_j13417477833309_1_alg».proof.Proof.Gen.ReferenceIdeal.Run
import proofs.«102241_j13417477833309_1_alg».proof.Proof.Gen.ReferenceIdeal.Read
import proofs.«102241_j13417477833309_1_alg».proof.Proof.KernelLayer
import proofs.«102241_j13417477833309_1_alg».proof.Proof.ReferenceLayer
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the layer's function of arguments that agree. -/
theorem algebraic : Cert.algebraic_KernelIdeal_ReferenceIdeal := by
  intro m ρ m' ρ' _ hagree
  refine ⟨fun c => Cert.KernelIdeal.LayerValue.layer m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v34_eq, Cert.ReferenceIdeal.LayerValue.result_eq, a0, a1, a2, a3, a4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
